-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x200 : Shape := ⟨2, ![1024, 200]⟩
abbrev S1024x50 : Shape := ⟨2, ![1024, 50]⟩
abbrev S100000x512 : Shape := ⟨2, ![100000, 512]⟩
abbrev S512x512 : Shape := ⟨2, ![512, 512]⟩
abbrev S512 : Shape := ⟨1, ![512]⟩
abbrev S512x1024 : Shape := ⟨2, ![512, 1024]⟩
abbrev S100000 : Shape := ⟨1, ![100000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg6 : FVec F S512 .f32) (main_arg7 : FVec F S100000x512 .f32) (main_arg8 : FVec F S100000 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S100000x512 .f32 := Host.absf main_arg7
  let main_cst_8 : FVec F S_ .f32 := constant S_ .f32 0x7F800000#32
  let main_v25 : FVec F S100000x512 .f32 := broadcastInDim S100000x512 ![] bcast_S_S100000x512 main_cst_8
  let main_v26 : IVec S100000x512 1 := cmpf .olt main_v24 main_v25
  let main_c_9 : IVec S_ 1 := constantI S_ 1 1#1
  let main_v27 : IVec S_ 1 := (fun x v => Host.reduce IntOp.andi x v reducesTo_S100000x512_S_d0_1 h_S_) main_v26 main_c_9
  let main_v28 : IVec S_ 1 := andi main_v23 main_v27
  let main_v29 : FVec F S100000 .f32 := Host.absf main_arg8
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  main_v33

def fn {F : FTy → Type} [FloatOps F] (main_arg0 : IVec S1024x200 32) (main_arg1 : IVec S1024x50 32) (main_arg2 : FVec F S100000x512 .f32) (main_arg3 : FVec F S512x512 .f32) (main_arg4 : FVec F S512 .f32) (main_arg5 : FVec F S512x1024 .f32) (main_arg6 : FVec F S512 .f32) (main_arg7 : FVec F S100000x512 .f32) (main_arg8 : FVec F S100000 .f32) : IVec S_ 1 :=
  let main_v0 : FVec F S100000x512 .f32 := Host.absf main_arg2
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg5
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg6 main_arg7 main_arg8 main_v13 main_v16
-- ==== Kernel.lean ====
abbrev S1024x200 : Shape := ⟨2, ![1024, 200]⟩
abbrev S1024x50 : Shape := ⟨2, ![1024, 50]⟩
abbrev S100000x512 : Shape := ⟨2, ![100000, 512]⟩
abbrev S512x512 : Shape := ⟨2, ![512, 512]⟩
abbrev S512 : Shape := ⟨1, ![512]⟩
abbrev S512x1024 : Shape := ⟨2, ![512, 1024]⟩
abbrev S100000 : Shape := ⟨1, ![100000]⟩
abbrev S_ : Shape := ⟨0, ![]⟩
abbrev S1024x200x1 : Shape := ⟨3, ![1024, 200, 1]⟩
abbrev S1024x200x512 : Shape := ⟨3, ![1024, 200, 512]⟩
abbrev S1024x1 : Shape := ⟨2, ![1024, 1]⟩
abbrev S1024x512 : Shape := ⟨2, ![1024, 512]⟩
abbrev S1024x50x1 : Shape := ⟨3, ![1024, 50, 1]⟩
abbrev S1024x50x512 : Shape := ⟨3, ![1024, 50, 512]⟩
abbrev S1x512 : Shape := ⟨2, ![1, 512]⟩
abbrev S1024x1024 : Shape := ⟨2, ![1024, 1024]⟩
abbrev S101120x512 : Shape := ⟨2, ![101120, 512]⟩
abbrev S101120 : Shape := ⟨1, ![101120]⟩
abbrev S1x101120 : Shape := ⟨2, ![1, 101120]⟩
abbrev S1024x101120 : Shape := ⟨2, ![1024, 101120]⟩
abbrev S1280x512 : Shape := ⟨2, ![1280, 512]⟩
abbrev S1x1280 : Shape := ⟨2, ![1, 1280]⟩
abbrev S1024x1280 : Shape := ⟨2, ![1024, 1280]⟩
abbrev S1024x100000 : Shape := ⟨2, ![1024, 100000]⟩

abbrev nBuf : Space → Nat
  | .hbm => 71
  | .vmem => 14
  | .smem => 0
  | _ => 0

abbrev bufTy : (tb : Table) → Fin (tcTables nBuf tb) → BufTy
  | .hbm, ⟨0, _⟩ => ⟨S1024x200, .i32⟩
  | .hbm, ⟨1, _⟩ => ⟨S1024x50, .i32⟩
  | .hbm, ⟨2, _⟩ => ⟨S100000x512, .f32⟩
  | .hbm, ⟨3, _⟩ => ⟨S512x512, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S100000x512, .f32⟩
  | .hbm, ⟨8, _⟩ => ⟨S100000, .f32⟩
  | .hbm, ⟨9, _⟩ => ⟨S_, .i32⟩
  | .hbm, ⟨10, _⟩ => ⟨S1024x200, .i32⟩
  | .hbm, ⟨11, _⟩ => ⟨S1024x200, .i1⟩
  | .hbm, ⟨12, _⟩ => ⟨S1024x200x1, .i1⟩
  | .hbm, ⟨13, _⟩ => ⟨S_, .i32⟩
  | .hbm, ⟨14, _⟩ => ⟨S1024x200, .i32⟩
  | .hbm, ⟨15, _⟩ => ⟨S1024x200, .i32⟩
  | .hbm, ⟨16, _⟩ => ⟨S_, .i32⟩
  | .hbm, ⟨17, _⟩ => ⟨S_, .i32⟩
  | .hbm, ⟨18, _⟩ => ⟨S1024x200, .i32⟩
  | .hbm, ⟨19, _⟩ => ⟨S1024x200, .i32⟩
  | .hbm, ⟨20, _⟩ => ⟨S_, .i32⟩
  | .hbm, ⟨21, _⟩ => ⟨S1024x200, .i32⟩
  | .hbm, ⟨22, _⟩ => ⟨S1024x200, .i1⟩
  | .hbm, ⟨23, _⟩ => ⟨S_, .i32⟩
  | .hbm, ⟨24, _⟩ => ⟨S1024x200, .i32⟩
  | .hbm, ⟨25, _⟩ => ⟨S1024x200, .i32⟩
  | .hbm, ⟨26, _⟩ => ⟨S1024x200, .i32⟩
  | .hbm, ⟨27, _⟩ => ⟨S1024x200x1, .i32⟩
  | .hbm, ⟨28, _⟩ => ⟨S1024x200x512, .f32⟩
  | .hbm, ⟨29, _⟩ => ⟨S_, .f32⟩
  | .hbm, ⟨30, _⟩ => ⟨S_, .f32⟩
  | .hbm, ⟨31, _⟩ => ⟨S1024x200x512, .i1⟩
  | .hbm, ⟨32, _⟩ => ⟨S1024x200x512, .f32⟩
  | .hbm, ⟨33, _⟩ => ⟨S1024x200x512, .f32⟩
  | .hbm, ⟨34, _⟩ => ⟨S1024x200x1, .i32⟩
  | .hbm, ⟨35, _⟩ => ⟨S_, .i32⟩
  | .hbm, ⟨36, _⟩ => ⟨S1024x1, .i32⟩
  | .hbm, ⟨37, _⟩ => ⟨S_, .i32⟩
  | .hbm, ⟨38, _⟩ => ⟨S1024x1, .i32⟩
  | .hbm, ⟨39, _⟩ => ⟨S1024x1, .i32⟩
  | .hbm, ⟨40, _⟩ => ⟨S1024x1, .f32⟩
  | .hbm, ⟨41, _⟩ => ⟨S_, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S_, .i32⟩
  | .hbm, ⟨46, _⟩ => ⟨S1024x50, .i32⟩
  | .hbm, ⟨47, _⟩ => ⟨S1024x50, .i1⟩
  | .hbm, ⟨48, _⟩ => ⟨S_, .i32⟩
  | .hbm, ⟨49, _⟩ => ⟨S1024x50, .i32⟩
  | .hbm, ⟨50, _⟩ => ⟨S1024x50, .i32⟩
  | .hbm, ⟨51, _⟩ => ⟨S1024x50, .i32⟩
  | .hbm, ⟨52, _⟩ => ⟨S1024x50x1, .i32⟩
  | .hbm, ⟨53, _⟩ => ⟨S1024x50x512, .f32⟩
  | .hbm, ⟨54, _⟩ => ⟨S_, .f32⟩
  | .hbm, ⟨55, _⟩ => ⟨S1024x512, .f32⟩
  | .hbm, ⟨56, _⟩ => ⟨S_, .f32⟩
  | .hbm, ⟨57, _⟩ => ⟨S1024x512, .f32⟩
  | .hbm, ⟨58, _⟩ => ⟨S1024x512, .f32⟩
  | .hbm, ⟨59, _⟩ => ⟨S1x512, .f32⟩
  | .hbm, ⟨60, _⟩ => ⟨S1x512, .f32⟩
  | .hbm, ⟨61, _⟩ => ⟨S1024x512, .f32⟩
  | .hbm, ⟨62, _⟩ => ⟨S_, .i32⟩
  | .hbm, ⟨63, _⟩ => ⟨S_, .f32⟩
  | .hbm, ⟨64, _⟩ => ⟨S101120x512, .f32⟩
  | .hbm, ⟨65, _⟩ => ⟨S_, .i32⟩
  | .hbm, ⟨66, _⟩ => ⟨S_, .f32⟩
  | .hbm, ⟨67, _⟩ => ⟨S101120, .f32⟩
  | .hbm, ⟨68, _⟩ => ⟨S1x101120, .f32⟩
  | .hbm, ⟨69, _⟩ => ⟨S1024x101120, .f32⟩
  | .hbm, ⟨70, _⟩ => ⟨S1024x100000, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S512x1024, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1280x512, .f32⟩
  | .local _ .vmem, ⟨9, _⟩ => ⟨S1280x512, .f32⟩
  | .local _ .vmem, ⟨10, _⟩ => ⟨S1x1280, .f32⟩
  | .local _ .vmem, ⟨11, _⟩ => ⟨S1x1280, .f32⟩
  | .local _ .vmem, ⟨12, _⟩ => ⟨S1024x1280, .f32⟩
  | .local _ .vmem, ⟨13, _⟩ => ⟨S1024x1280, .f32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_c_5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_7 : Ref sig .tc := ⟨.hbm, 45, rfl⟩
abbrev main_v22 : Ref sig .tc := ⟨.hbm, 46, rfl⟩
abbrev main_v23 : Ref sig .tc := ⟨.hbm, 47, rfl⟩
abbrev main_c_8 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_9 : Ref sig .tc := ⟨.hbm, 54, rfl⟩
abbrev main_v29 : Ref sig .tc := ⟨.hbm, 55, rfl⟩
abbrev main_cst_10 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_11 : Ref sig .tc := ⟨.hbm, 62, rfl⟩
abbrev main_call2_v0 : Ref sig .tc := ⟨.hbm, 63, rfl⟩
abbrev main_v35 : Ref sig .tc := ⟨.hbm, 64, rfl⟩
abbrev main_c_12 : Ref sig .tc := ⟨.hbm, 65, rfl⟩
abbrev main_call3_v0 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![79], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1280x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S1024x200x1_S1024x200x512_0_1_2 : S1024x200x1.BroadcastsInDim S1024x200x512 (![0, 1, 2] : Fin 3 → Fin S1024x200x512.rank)
  bcast_S_S1024x200x512 : S_.BroadcastsInDim S1024x200x512 (![] : Fin 0 → Fin S1024x200x512.rank)
  natLt_1_32 : 1 < 32
  reducesTo_S1024x200x1_S1024x1_d1 : S1024x200x1.ReducesTo [1] S1024x1
  h_S_ : 0 < S_.numel
  bcast_S_S1024x1 : S_.BroadcastsInDim S1024x1 (![] : Fin 0 → Fin S1024x1.rank)
  reducesTo_S1024x200x512_S1024x512_d1 : S1024x200x512.ReducesTo [1] S1024x512
  bcast_S1024x1_S1024x512_0_1 : S1024x1.BroadcastsInDim S1024x512 (![0, 1] : Fin 2 → Fin S1024x512.rank)
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  reducesTo_S1024x50x512_S1024x512_d1 : S1024x50x512.ReducesTo [1] S1024x512
  bcast_S_S1024x512 : S_.BroadcastsInDim S1024x512 (![] : Fin 0 → Fin S1024x512.rank)
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  concatenates_S1024x512_S1024x512_S1024x1024_d1 : Shape.Concatenates [S1024x512, S1024x512] S1024x1024 1
  inb_S512x1024_S512x1024_0_0 : ∀ a, (![0, 0] : Fin 2 → Nat) a + S512x1024.size a ≤ S512x1024.size a
  h_S512x1024 : 0 < S512x1024.numel
  pads_S100000x512_S101120x512_011200_000 : S100000x512.Pads (![0, 0] : Fin 2 → Nat) ![1120, 0] ![0, 0] S101120x512
  pads_S100000_S101120_011200 : S100000.Pads (![0] : Fin 1 → Nat) ![1120] ![0] S101120
  shapeCasts_S101120_S1x101120 : S101120.ShapeCasts S1x101120
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  inb_S1024x1280_S1024x1280_0_0 : ∀ a, (![0, 0] : Fin 2 → Nat) a + S1024x1280.size a ≤ S1024x1280.size a
  h_S1024x1280 : 0 < S1024x1280.numel
  slices_S1024x101120_S1024x100000_0_0 : S1024x101120.Slices ![0, 0] S1024x100000
  gather_S100000x512_S1024x200x1_S1024x200x512_2_0_n_n_0_2_1512_wf : GatherDims.WF S100000x512 S1024x200x1 S1024x200x512 [2] [0] [] [0] [] 2 ![1, 512]
  gather_S100000x512_S1024x50x1_S1024x50x512_2_0_n_n_0_2_1512_wf : GatherDims.WF S100000x512 S1024x50x1 S1024x50x512 [2] [0] [] [0] [] 2 ![1, 512]
  dot_S1024x512_S512x512_S1024x512_1_1_0_0_n_n_wf : DotDims.WF S1024x512 S512x512 S1024x512 [1] [1] [0] [0] [] []
  dot_S1024x1024_S512x1024_S1024x512_1_1_0_0_n_n_wf : DotDims.WF S1024x1024 S512x1024 S1024x512 [1] [1] [0] [0] [] []
  dot_S1024x512_S1280x512_S1024x1280_1_1_0_0_n_n_wf : DotDims.WF S1024x512 S1280x512 S1024x1280 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .f32 = 32 ∨ (Rect.block (s := S512x1024) S512x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .f32 = 32 ∨ (Rect.block (s := S1024x512) S1024x512.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x512.size a
  hwx1_0 : ∀ i : grid1.Coords, EltTy.bits .f32 = 32 ∨ (Rect.block (s := S1024x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x512.size a ≤ S101120x512.size a
  hwx1_1 : ∀ i : grid1.Coords, EltTy.bits .f32 = 32 ∨ (Rect.block (s := S101120x512) S1280x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x101120.size a
  hwx1_2 : ∀ i : grid1.Coords, EltTy.bits .f32 = 32 ∨ (Rect.block (s := S1x101120) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1280.size a ≤ S1024x101120.size a
  hwx1_3 : ∀ i : grid1.Coords, EltTy.bits .f32 = 32 ∨ (Rect.block (s := S1024x101120) S1024x1280.size (cc1_transform_3 i) (hinb1_3 i)).WholeWords (EltTy.packing .f32)

variable [Facts₀]

def gather_S100000x512_S1024x200x1_S1024x200x512_2_0_n_n_0_2_1512 : GatherDims S100000x512 S1024x200x1 S1024x200x512 where
  offsetDims := [2]
  collapsedSliceDims := [0]
  operandBatchingDims := []
  startIndicesBatchingDims := []
  startIndexMap := [0]
  indexVectorDim := 2
  sliceSizes := ![1, 512]
  wf := gather_S100000x512_S1024x200x1_S1024x200x512_2_0_n_n_0_2_1512_wf
def gather_S100000x512_S1024x50x1_S1024x50x512_2_0_n_n_0_2_1512 : GatherDims S100000x512 S1024x50x1 S1024x50x512 where
  offsetDims := [2]
  collapsedSliceDims := [0]
  operandBatchingDims := []
  startIndicesBatchingDims := []
  startIndexMap := [0]
  indexVectorDim := 2
  sliceSizes := ![1, 512]
  wf := gather_S100000x512_S1024x50x1_S1024x50x512_2_0_n_n_0_2_1512_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S1280x512_S1024x1280_1_1_0_0_n_n : DotDims S1024x512 S1280x512 S1024x1280 where
  lhsContracting := [1]
  rhsContracting := [1]
  lhsNonContracting := [0]
  rhsNonContracting := [0]
  lhsBatch := []
  rhsBatch := []
  wf := dot_S1024x512_S1280x512_S1024x1280_1_1_0_0_n_n_wf

abbrev win0_0 : Pipeline.Window sig grid0 :=
  Pipeline.Window.ofSpec (Memref.whole main_v21) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1024x512.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S1024x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1280x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1024x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x200 : Shape := ⟨2, ![1024, 200]⟩
abbrev S1024x50 : Shape := ⟨2, ![1024, 50]⟩
abbrev S100000x512 : Shape := ⟨2, ![100000, 512]⟩
abbrev S512x512 : Shape := ⟨2, ![512, 512]⟩
abbrev S512 : Shape := ⟨1, ![512]⟩
abbrev S512x1024 : Shape := ⟨2, ![512, 1024]⟩
abbrev S100000 : Shape := ⟨1, ![100000]⟩
abbrev S_ : Shape := ⟨0, ![]⟩
abbrev S1024x200x1 : Shape := ⟨3, ![1024, 200, 1]⟩
abbrev S1024x200x512 : Shape := ⟨3, ![1024, 200, 512]⟩
abbrev S1024x1 : Shape := ⟨2, ![1024, 1]⟩
abbrev S1024x512 : Shape := ⟨2, ![1024, 512]⟩
abbrev S1x512 : Shape := ⟨2, ![1, 512]⟩
abbrev S1024x50x1 : Shape := ⟨3, ![1024, 50, 1]⟩
abbrev S1024x50x512 : Shape := ⟨3, ![1024, 50, 512]⟩
abbrev S1024x1024 : Shape := ⟨2, ![1024, 1024]⟩
abbrev S512x100000 : Shape := ⟨2, ![512, 100000]⟩
abbrev S1024x100000 : Shape := ⟨2, ![1024, 100000]⟩
abbrev S1x100000 : Shape := ⟨2, ![1, 100000]⟩

abbrev nBuf : Space → Nat
  | .hbm => 89
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x50, .i32⟩
  | .hbm, ⟨2, _⟩ => ⟨S100000x512, .f32⟩
  | .hbm, ⟨3, _⟩ => ⟨S512x512, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S100000x512, .f32⟩
  | .hbm, ⟨8, _⟩ => ⟨S100000, .f32⟩
  | .hbm, ⟨9, _⟩ => ⟨S_, .i32⟩
  | .hbm, ⟨10, _⟩ => ⟨S1024x200, .i32⟩
  | .hbm, ⟨11, _⟩ => ⟨S1024x200, .i1⟩
  | .hbm, ⟨12, _⟩ => ⟨S1024x200x1, .i1⟩
  | .hbm, ⟨13, _⟩ => ⟨S_, .i32⟩
  | .hbm, ⟨14, _⟩ => ⟨S1024x200, .i32⟩
  | .hbm, ⟨15, _⟩ => ⟨S1024x200, .i32⟩
  | .hbm, ⟨16, _⟩ => ⟨S_, .i32⟩
  | .hbm, ⟨17, _⟩ => ⟨S_, .i32⟩
  | .hbm, ⟨18, _⟩ => ⟨S1024x200, .i32⟩
  | .hbm, ⟨19, _⟩ => ⟨S1024x200, .i32⟩
  | .hbm, ⟨20, _⟩ => ⟨S_, .i32⟩
  | .hbm, ⟨21, _⟩ => ⟨S1024x200, .i32⟩
  | .hbm, ⟨22, _⟩ => ⟨S1024x200, .i1⟩
  | .hbm, ⟨23, _⟩ => ⟨S_, .i32⟩
  | .hbm, ⟨24, _⟩ => ⟨S1024x200, .i32⟩
  | .hbm, ⟨25, _⟩ => ⟨S1024x200, .i32⟩
  | .hbm, ⟨26, _⟩ => ⟨S1024x200, .i32⟩
  | .hbm, ⟨27, _⟩ => ⟨S1024x200x1, .i32⟩
  | .hbm, ⟨28, _⟩ => ⟨S1024x200x512, .f32⟩
  | .hbm, ⟨29, _⟩ => ⟨S_, .f32⟩
  | .hbm, ⟨30, _⟩ => ⟨S_, .f32⟩
  | .hbm, ⟨31, _⟩ => ⟨S1024x200x512, .i1⟩
  | .hbm, ⟨32, _⟩ => ⟨S1024x200x512, .f32⟩
  | .hbm, ⟨33, _⟩ => ⟨S1024x200x512, .f32⟩
  | .hbm, ⟨34, _⟩ => ⟨S1024x200x1, .i32⟩
  | .hbm, ⟨35, _⟩ => ⟨S_, .i32⟩
  | .hbm, ⟨36, _⟩ => ⟨S1024x1, .i32⟩
  | .hbm, ⟨37, _⟩ => ⟨S_, .i32⟩
  | .hbm, ⟨38, _⟩ => ⟨S1024x1, .i32⟩
  | .hbm, ⟨39, _⟩ => ⟨S1024x1, .i32⟩
  | .hbm, ⟨40, _⟩ => ⟨S1024x1, .f32⟩
  | .hbm, ⟨41, _⟩ => ⟨S_, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S512x512, .f32⟩
  | .hbm, ⟨46, _⟩ => ⟨S1024x512, .f32⟩
  | .hbm, ⟨47, _⟩ => ⟨S1x512, .f32⟩
  | .hbm, ⟨48, _⟩ => ⟨S1024x512, .f32⟩
  | .hbm, ⟨49, _⟩ => ⟨S1024x512, .f32⟩
  | .hbm, ⟨50, _⟩ => ⟨S_, .i32⟩
  | .hbm, ⟨51, _⟩ => ⟨S1024x50, .i32⟩
  | .hbm, ⟨52, _⟩ => ⟨S1024x50, .i1⟩
  | .hbm, ⟨53, _⟩ => ⟨S_, .i32⟩
  | .hbm, ⟨54, _⟩ => ⟨S1024x50, .i32⟩
  | .hbm, ⟨55, _⟩ => ⟨S1024x50, .i32⟩
  | .hbm, ⟨56, _⟩ => ⟨S1024x50, .i32⟩
  | .hbm, ⟨57, _⟩ => ⟨S1024x50x1, .i32⟩
  | .hbm, ⟨58, _⟩ => ⟨S1024x50x512, .f32⟩
  | .hbm, ⟨59, _⟩ => ⟨S_, .f32⟩
  | .hbm, ⟨60, _⟩ => ⟨S1024x512, .f32⟩
  | .hbm, ⟨61, _⟩ => ⟨S_, .f32⟩
  | .hbm, ⟨62, _⟩ => ⟨S1024x512, .f32⟩
  | .hbm, ⟨63, _⟩ => ⟨S1024x512, .f32⟩
  | .hbm, ⟨64, _⟩ => ⟨S1024x1024, .f32⟩
  | .hbm, ⟨65, _⟩ => ⟨S1024x512, .f32⟩
  | .hbm, ⟨66, _⟩ => ⟨S1024x512, .f32⟩
  | .hbm, ⟨67, _⟩ => ⟨S1x512, .f32⟩
  | .hbm, ⟨68, _⟩ => ⟨S1024x512, .f32⟩
  | .hbm, ⟨69, _⟩ => ⟨S1024x512, .f32⟩
  | .hbm, ⟨70, _⟩ => ⟨S1024x512, .f32⟩
  | .hbm, ⟨71, _⟩ => ⟨S1024x512, .f32⟩
  | .hbm, ⟨72, _⟩ => ⟨S_, .f32⟩
  | .hbm, ⟨73, _⟩ => ⟨S1024x512, .f32⟩
  | .hbm, ⟨74, _⟩ => ⟨S1024x512, .f32⟩
  | .hbm, ⟨75, _⟩ => ⟨S_, .f32⟩
  | .hbm, ⟨76, _⟩ => ⟨S1024x512, .f32⟩
  | .hbm, ⟨77, _⟩ => ⟨S1024x512, .f32⟩
  | .hbm, ⟨78, _⟩ => ⟨S1024x512, .f32⟩
  | .hbm, ⟨79, _⟩ => ⟨S_, .f32⟩
  | .hbm, ⟨80, _⟩ => ⟨S1024x512, .f32⟩
  | .hbm, ⟨81, _⟩ => ⟨S1024x512, .f32⟩
  | .hbm, ⟨82, _⟩ => ⟨S1024x512, .f32⟩
  | .hbm, ⟨83, _⟩ => ⟨S1024x512, .f32⟩
  | .hbm, ⟨84, _⟩ => ⟨S512x100000, .f32⟩
  | .hbm, ⟨85, _⟩ => ⟨S1024x100000, .f32⟩
  | .hbm, ⟨86, _⟩ => ⟨S1x100000, .f32⟩
  | .hbm, ⟨87, _⟩ => ⟨S1024x100000, .f32⟩
  | .hbm, ⟨88, _⟩ => ⟨S1024x100000, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_c_5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_cst_10 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]

class Facts₀ : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S1024x200x1_S1024x200x512_0_1_2 : S1024x200x1.BroadcastsInDim S1024x200x512 (![0, 1, 2] : Fin 3 → Fin S1024x200x512.rank)
  bcast_S_S1024x200x512 : S_.BroadcastsInDim S1024x200x512 (![] : Fin 0 → Fin S1024x200x512.rank)
  natLt_1_32 : 1 < 32
  reducesTo_S1024x200x1_S1024x1_d1 : S1024x200x1.ReducesTo [1] S1024x1
  h_S_ : 0 < S_.numel
  bcast_S_S1024x1 : S_.BroadcastsInDim S1024x1 (![] : Fin 0 → Fin S1024x1.rank)
  reducesTo_S1024x200x512_S1024x512_d1 : S1024x200x512.ReducesTo [1] S1024x512
  bcast_S1024x1_S1024x512_0_1 : S1024x1.BroadcastsInDim S1024x512 (![0, 1] : Fin 2 → Fin S1024x512.rank)
  transposes_S512x512_S512x512_1_0 : S512x512.Transposes [1, 0] S512x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  reducesTo_S1024x50x512_S1024x512_d1 : S1024x50x512.ReducesTo [1] S1024x512
  bcast_S_S1024x512 : S_.BroadcastsInDim S1024x512 (![] : Fin 0 → Fin S1024x512.rank)
  concatenates_S1024x512_S1024x512_S1024x1024_d1 : Shape.Concatenates [S1024x512, S1024x512] S1024x1024 1
  transposes_S512x1024_S1024x512_1_0 : S512x1024.Transposes [1, 0] S1024x512
  transposes_S100000x512_S512x100000_1_0 : S100000x512.Transposes [1, 0] S512x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x512_S1024x200x1_S1024x200x512_2_0_n_n_0_2_1512_wf : GatherDims.WF S100000x512 S1024x200x1 S1024x200x512 [2] [0] [] [0] [] 2 ![1, 512]
  dot_S1024x512_S512x512_S1024x512_1_0_0_1_n_n_wf : DotDims.WF S1024x512 S512x512 S1024x512 [1] [0] [0] [1] [] []
  gather_S100000x512_S1024x50x1_S1024x50x512_2_0_n_n_0_2_1512_wf : GatherDims.WF S100000x512 S1024x50x1 S1024x50x512 [2] [0] [] [0] [] 2 ![1, 512]
  dot_S1024x1024_S1024x512_S1024x512_1_0_0_1_n_n_wf : DotDims.WF S1024x1024 S1024x512 S1024x512 [1] [0] [0] [1] [] []
  dot_S1024x512_S512x100000_S1024x100000_1_0_0_1_n_n_wf : DotDims.WF S1024x512 S512x100000 S1024x100000 [1] [0] [0] [1] [] []

variable [Facts₀]

def gather_S100000x512_S1024x200x1_S1024x200x512_2_0_n_n_0_2_1512 : GatherDims S100000x512 S1024x200x1 S1024x200x512 where
  offsetDims := [2]
  collapsedSliceDims := [0]
  operandBatchingDims := []
  startIndicesBatchingDims := []
  startIndexMap := [0]
  indexVectorDim := 2
  sliceSizes := ![1, 512]
  wf := gather_S100000x512_S1024x200x1_S1024x200x512_2_0_n_n_0_2_1512_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def gather_S100000x512_S1024x50x1_S1024x50x512_2_0_n_n_0_2_1512 : GatherDims S100000x512 S1024x50x1 S1024x50x512 where
  offsetDims := [2]
  collapsedSliceDims := [0]
  operandBatchingDims := []
  startIndicesBatchingDims := []
  startIndexMap := [0]
  indexVectorDim := 2
  sliceSizes := ![1, 512]
  wf := gather_S100000x512_S1024x50x1_S1024x50x512_2_0_n_n_0_2_1512_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf

class Facts : Prop extends Facts₀ where

variable [Facts]
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.KernelDots.lean ====
/-
  The kernel's three matrix products, each contracting the SECOND axis of both operands (rows of the left operand against
  rows of the right one, a product with the right operand's transpose), read at an entry of the result: with a zero
  accumulator, entry (r, c) is the sum over k of left (r, k) times right (c, k). The steps are those of the
  reading of a host dot_general: the contraction index is its one coordinate, and the two operand indices are computed
  axis by axis from the dimension numbers.
-/
import proofs.«139224_j6365141533105_1_alg».proof.Proof.Gen.KernelIdeal
import Idealize.ShloMosaic.Lib.ValueIdx
import Idealize.ShloMosaic.PureOps.Ideal.Laws

set_option synthInstance.maxSize 4096

noncomputable section

namespace Cert.KernelIdeal.Dots

open Cert.KernelIdeal Idealize.ShloMosaic

/-! ## the user representation: pooled rows against the rows of W_rec -/

theorem lhsU_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhsU_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem rhsU_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhsU_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- Row `i 0` of the left operand at column `k`. -/
abbrev leftU (i : S1024x512.Idx) (k : Fin 512) : S1024x512.Idx := fun a => match a with
  | ⟨0, _⟩ => ⟨(i 0).val, (i 0).isLt⟩
  | ⟨1, _⟩ => ⟨k.val, k.isLt⟩
/-- Row `i 1` of the right operand at column `k`. -/
abbrev rightU (i : S1024x512.Idx) (k : Fin 512) : S512x512.Idx := fun a => match a with
  | ⟨0, _⟩ => ⟨(i 1).val, (i 1).isLt⟩
  | ⟨1, _⟩ => ⟨k.val, k.isLt⟩

theorem matmulU_apply {φ₁ φ₂ : FTy} (x : FVec Ideal S1024x512 φ₁) (w : FVec Ideal S512x512 φ₂) (i : S1024x512.Idx) :
    matmul dot_S1024x512_S512x512_S1024x512_1_1_0_0_n_n none x w (constant (F := Ideal) S1024x512 .f32 0x00000000#32) i
      = ∑ k : Fin 512, x (leftU i k) * w (rightU i k) := by
  show FloatOps.matmul dot_S1024x512_S512x512_S1024x512_1_1_0_0_n_n none x w (constant (F := Ideal) S1024x512 .f32 0x00000000#32) i = _
  rw [Ideal.matmul_constant_zero_apply, ← Equiv.sum_comp (ValueIdx.contrEquiv1 dot_S1024x512_S512x512_S1024x512_1_1_0_0_n_n 512 rfl rfl).symm]
  refine Finset.sum_congr rfl fun k _ => ?_
  have hk := ValueIdx.contrEquiv1_symm_val dot_S1024x512_S512x512_S1024x512_1_1_0_0_n_n 512 rfl rfl k
  have el : dot_S1024x512_S512x512_S1024x512_1_1_0_0_n_n.lhsIdx i ((ValueIdx.contrEquiv1 dot_S1024x512_S512x512_S1024x512_1_1_0_0_n_n 512 rfl rfl).symm k) = leftU i k := funext fun a => Fin.ext (by
    match a with
    | ⟨0, _⟩ => exact lhsU_0 _ _
    | ⟨1, _⟩ => exact (lhsU_1 _ _).trans hk)
  have er : dot_S1024x512_S512x512_S1024x512_1_1_0_0_n_n.rhsIdx i ((ValueIdx.contrEquiv1 dot_S1024x512_S512x512_S1024x512_1_1_0_0_n_n 512 rfl rfl).symm k) = rightU i k := funext fun a => Fin.ext (by
    match a with
    | ⟨0, _⟩ => exact rhsU_0 _ _
    | ⟨1, _⟩ => exact (rhsU_1 _ _).trans hk)
  rw [el, er]

/-! ## the gate logit: concatenated rows against the rows of gate_W -/

theorem lhsG_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhsG_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhsG_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhsG_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- Row `i 0` of the left operand at column `k`. -/
abbrev leftG (i : S1024x512.Idx) (k : Fin 1024) : S1024x1024.Idx := fun a => match a with
  | ⟨0, _⟩ => ⟨(i 0).val, (i 0).isLt⟩
  | ⟨1, _⟩ => ⟨k.val, k.isLt⟩
/-- Row `i 1` of the right operand at column `k`. -/
abbrev rightG (i : S1024x512.Idx) (k : Fin 1024) : S512x1024.Idx := fun a => match a with
  | ⟨0, _⟩ => ⟨(i 1).val, (i 1).isLt⟩
  | ⟨1, _⟩ => ⟨k.val, k.isLt⟩

theorem matmulG_apply {φ₁ φ₂ : FTy} (x : FVec Ideal S1024x1024 φ₁) (w : FVec Ideal S512x1024 φ₂) (i : S1024x512.Idx) :
    matmul dot_S1024x1024_S512x1024_S1024x512_1_1_0_0_n_n none x w (constant (F := Ideal) S1024x512 .f32 0x00000000#32) i
      = ∑ k : Fin 1024, x (leftG i k) * w (rightG i k) := by
  show FloatOps.matmul dot_S1024x1024_S512x1024_S1024x512_1_1_0_0_n_n none x w (constant (F := Ideal) S1024x512 .f32 0x00000000#32) i = _
  rw [Ideal.matmul_constant_zero_apply, ← Equiv.sum_comp (ValueIdx.contrEquiv1 dot_S1024x1024_S512x1024_S1024x512_1_1_0_0_n_n 1024 rfl rfl).symm]
  refine Finset.sum_congr rfl fun k _ => ?_
  have hk := ValueIdx.contrEquiv1_symm_val dot_S1024x1024_S512x1024_S1024x512_1_1_0_0_n_n 1024 rfl rfl k
  have el : dot_S1024x1024_S512x1024_S1024x512_1_1_0_0_n_n.lhsIdx i ((ValueIdx.contrEquiv1 dot_S1024x1024_S512x1024_S1024x512_1_1_0_0_n_n 1024 rfl rfl).symm k) = leftG i k := funext fun a => Fin.ext (by
    match a with
    | ⟨0, _⟩ => exact lhsG_0 _ _
    | ⟨1, _⟩ => exact (lhsG_1 _ _).trans hk)
  have er : dot_S1024x1024_S512x1024_S1024x512_1_1_0_0_n_n.rhsIdx i ((ValueIdx.contrEquiv1 dot_S1024x1024_S512x1024_S1024x512_1_1_0_0_n_n 1024 rfl rfl).symm k) = rightG i k := funext fun a => Fin.ext (by
    match a with
    | ⟨0, _⟩ => exact rhsG_0 _ _
    | ⟨1, _⟩ => exact (rhsG_1 _ _).trans hk)
  rw [el, er]

/-! ## one tile of the projection: fused rows against 1280 rows of the padded proj_W -/

theorem lhsP_0 (i : S1024x1280.Idx) (q : dot_S1024x512_S1280x512_S1024x1280_1_1_0_0_n_n.contr.Idx) :
    (dot_S1024x512_S1280x512_S1024x1280_1_1_0_0_n_n.lhsIdx i q 0).val = (i 0).val := by
  unfold DotDims.lhsIdx
  rw [dif_neg (show ¬(0 : Fin S1024x512.rank) ∈ dot_S1024x512_S1280x512_S1024x1280_1_1_0_0_n_n.lhsBatch by decide), dif_pos (show (0 : Fin S1024x512.rank) ∈ dot_S1024x512_S1280x512_S1024x1280_1_1_0_0_n_n.lhsNonContracting by decide)]
  rfl
theorem lhsP_1 (i : S1024x1280.Idx) (q : dot_S1024x512_S1280x512_S1024x1280_1_1_0_0_n_n.contr.Idx) :
    (dot_S1024x512_S1280x512_S1024x1280_1_1_0_0_n_n.lhsIdx i q 1).val = (q ⟨0, by decide⟩).val :=
  dot_S1024x512_S1280x512_S1024x1280_1_1_0_0_n_n.lhsIdx_val_of_single rfl i q
theorem rhsP_0 (i : S1024x1280.Idx) (q : dot_S1024x512_S1280x512_S1024x1280_1_1_0_0_n_n.contr.Idx) :
    (dot_S1024x512_S1280x512_S1024x1280_1_1_0_0_n_n.rhsIdx i q 0).val = (i 1).val := by
  unfold DotDims.rhsIdx
  rw [dif_neg (show ¬(0 : Fin S1280x512.rank) ∈ dot_S1024x512_S1280x512_S1024x1280_1_1_0_0_n_n.rhsBatch by decide), dif_pos (show (0 : Fin S1280x512.rank) ∈ dot_S1024x512_S1280x512_S1024x1280_1_1_0_0_n_n.rhsNonContracting by decide)]
  rfl
theorem rhsP_1 (i : S1024x1280.Idx) (q : dot_S1024x512_S1280x512_S1024x1280_1_1_0_0_n_n.contr.Idx) :
    (dot_S1024x512_S1280x512_S1024x1280_1_1_0_0_n_n.rhsIdx i q 1).val = (q ⟨0, by decide⟩).val :=
  dot_S1024x512_S1280x512_S1024x1280_1_1_0_0_n_n.rhsIdx_val_of_single rfl i q

/-- Row `i 0` of the left operand at column `k`. -/
abbrev leftP (i : S1024x1280.Idx) (k : Fin 512) : S1024x512.Idx := fun a => match a with
  | ⟨0, _⟩ => ⟨(i 0).val, (i 0).isLt⟩
  | ⟨1, _⟩ => ⟨k.val, k.isLt⟩
/-- Row `i 1` of the right operand at column `k`. -/
abbrev rightP (i : S1024x1280.Idx) (k : Fin 512) : S1280x512.Idx := fun a => match a with
  | ⟨0, _⟩ => ⟨(i 1).val, (i 1).isLt⟩
  | ⟨1, _⟩ => ⟨k.val, k.isLt⟩

theorem matmulP_apply {φ₁ φ₂ : FTy} (x : FVec Ideal S1024x512 φ₁) (w : FVec Ideal S1280x512 φ₂) (i : S1024x1280.Idx) :
    matmul dot_S1024x512_S1280x512_S1024x1280_1_1_0_0_n_n none x w (constant (F := Ideal) S1024x1280 .f32 0x00000000#32) i
      = ∑ k : Fin 512, x (leftP i k) * w (rightP i k) := by
  show FloatOps.matmul dot_S1024x512_S1280x512_S1024x1280_1_1_0_0_n_n none x w (constant (F := Ideal) S1024x1280 .f32 0x00000000#32) i = _
  rw [Ideal.matmul_constant_zero_apply, ← Equiv.sum_comp (ValueIdx.contrEquiv1 dot_S1024x512_S1280x512_S1024x1280_1_1_0_0_n_n 512 rfl rfl).symm]
  refine Finset.sum_congr rfl fun k _ => ?_
  have hk := ValueIdx.contrEquiv1_symm_val dot_S1024x512_S1280x512_S1024x1280_1_1_0_0_n_n 512 rfl rfl k
  have el : dot_S1024x512_S1280x512_S1024x1280_1_1_0_0_n_n.lhsIdx i ((ValueIdx.contrEquiv1 dot_S1024x512_S1280x512_S1024x1280_1_1_0_0_n_n 512 rfl rfl).symm k) = leftP i k := funext fun a => Fin.ext (by
    match a with
    | ⟨0, _⟩ => exact lhsP_0 _ _
    | ⟨1, _⟩ => exact (lhsP_1 _ _).trans hk)
  have er : dot_S1024x512_S1280x512_S1024x1280_1_1_0_0_n_n.rhsIdx i ((ValueIdx.contrEquiv1 dot_S1024x512_S1280x512_S1024x1280_1_1_0_0_n_n 512 rfl rfl).symm k) = rightP i k := funext fun a => Fin.ext (by
    match a with
    | ⟨0, _⟩ => exact rhsP_0 _ _
    | ⟨1, _⟩ => exact (rhsP_1 _ _).trans hk)
  rw [el, er]

end Cert.KernelIdeal.Dots

end
-- ==== Proof.RegionProj.lean ====
/-
  The projection region. Its grid has 79 points; point t multiplies the whole fused matrix [1024, 512] with rows
  1280 t … 1280 t + 1279 of the padded weight matrix and adds the same columns of the padded bias row, and writes the
  result back as columns 1280 t … 1280 t + 1279 of the padded logits. The 79 column tiles cover the padded logits, so
  after the region the array is ONE function of the three arrays the region read: entry (r, n) is the sum over k of
  fused (r, k) times weight (n, k), plus bias (0, n).
-/
import proofs.«139224_j6365141533105_1_alg».proof.Proof.Gen.KernelIdeal.Frame
import proofs.«139224_j6365141533105_1_alg».proof.Proof.KernelDots
import Idealize.ShloMosaic.Lib.Pipeline.Value
import Idealize.ShloMosaic.Lib.ValueIdx

set_option maxRecDepth 16384

noncomputable section

namespace Cert.KernelIdeal.Proj

open Cert.KernelIdeal Cert.KernelIdeal.Gen Cert.KernelIdeal.Dots
open Idealize.ShloMosaic Idealize.ShloMosaic.TcCoe Idealize.SL.Sem
open Idealize.ShloMosaic.Pipeline (Dat Cfg Window)

theorem hz : (![0, 0] : Fin 2 → Nat) = fun _ => 0 := funext fun a => by fin_cases a <;> rfl

/-! ## One tile: the body's value at an entry -/

/-- The bias row's entry above column `j 1` of a tile. -/
abbrev tileBias (j : S1024x1280.Idx) : S1x1280.Idx := fun a => match a with
  | ⟨0, _⟩ => ⟨0, Nat.one_pos⟩
  | ⟨1, _⟩ => ⟨(j 1).val, (j 1).isLt⟩

theorem tile_apply (x0 : Vec Ideal S1024x512 .f32) (x1 : Vec Ideal S1280x512 .f32) (x2 : Vec Ideal S1x1280 .f32) (j : S1024x1280.Idx) :
    k1_pay1 (F := Ideal) x0 x1 x2 j = (∑ k : Fin 512, x0 (leftP j k) * x1 (rightP j k)) + x2 (tileBias j) := by
  unfold k1_pay1
  rw [shapeCast_self, shapeCast_self, shapeCast_self]
  show matmul dot_S1024x512_S1280x512_S1024x1280_1_1_0_0_n_n none (truncf .bf16 x0 bitsLt_bf16_f32) (truncf .bf16 x1 bitsLt_bf16_f32)
      (constant (F := Ideal) S1024x1280 .f32 0x00000000#32) j + broadcastTo S1024x1280 x2 broadcasts_S1x1280_S1024x1280 j = _
  rw [matmulP_apply, broadcastTo_apply x2 broadcasts_S1x1280_S1024x1280 j (tileBias j) (fun a => match a with
    | ⟨0, _⟩ => by show 0 = if (1 : Nat) = 1 then 0 else (j 0).val; rw [if_pos rfl]
    | ⟨1, _⟩ => by show (j 1).val = if (1280 : Nat) = 1 then 0 else (j 1).val; rw [if_neg (by decide)])]
  rfl

/-! ## The padded logits as one function of the three arrays the region reads -/

/-- Row `i 0` of the fused matrix at column `k`. -/
abbrev fusedAt (i : S1024x101120.Idx) (k : Fin 512) : S1024x512.Idx := fun a => match a with
  | ⟨0, _⟩ => ⟨(i 0).val, (i 0).isLt⟩
  | ⟨1, _⟩ => ⟨k.val, k.isLt⟩
/-- Row `i 1` of the padded weight matrix at column `k`. -/
abbrev weightAt (i : S1024x101120.Idx) (k : Fin 512) : S101120x512.Idx := fun a => match a with
  | ⟨0, _⟩ => ⟨(i 1).val, (i 1).isLt⟩
  | ⟨1, _⟩ => ⟨k.val, k.isLt⟩
/-- The padded bias row's entry above column `i 1`. -/
abbrev biasAt (i : S1024x101120.Idx) : S1x101120.Idx := fun a => match a with
  | ⟨0, _⟩ => ⟨0, Nat.one_pos⟩
  | ⟨1, _⟩ => ⟨(i 1).val, (i 1).isLt⟩

/-- Entry (r, n) of the padded logits: fused row r against padded weight row n, plus the padded bias at n. -/
def logitsPad (fu : Vec Ideal S1024x512 .f32) (w : Vec Ideal S101120x512 .f32) (b : Vec Ideal S1x101120 .f32) :
    Vec Ideal S1024x101120 .f32 :=
  fun i => (∑ k : Fin 512, fu (fusedAt i k) * w (weightAt i k)) + b (biasAt i)

variable (V : (c : Dev nD) → (b : Ref sig .tc) → Buf (Elt Ideal) ((c : Thread nD τ).loc b))

/-- The printed index maps over the 79 points: the fused window stays at block (0, 0); the weight window takes row block
    t, the bias window and the output window column block t. -/
theorem idx_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- WHAT POINT `t` WRITES BACK is column block `t` of the padded logits. -/
theorem flushed_eq (c : Dev nD) (t : Fin cfg1.N) :
    (dat1 V c).flushed 3 t = ((cfg1.win 3).blk t).view.read (Elt Ideal) (logitsPad (V c main_v34) (V c main_v35) (V c main_v37)) := by
  show (cfg1.win 3).cut (grid1.coords t) ((dat1 V c).after 3 t) = _
  rw [after1_3]
  unfold out1_3
  rw [View.canon_unit_zero hz]
  simp only [View.ld_unit_zero (S := S1024x512) hz, View.ld_unit_zero (S := S1280x512) hz, View.ld_unit_zero (S := S1x1280) hz]
  funext j
  show k1_pay1 (F := Ideal) (iblk1 V c 0 t) (iblk1 V c 1 t) (iblk1 V c 2 t) j
    = logitsPad (V c main_v34) (V c main_v35) (V c main_v37) (((cfg1.win 3).blk t).view.emb j)
  refine (tile_apply (iblk1 V c 0 t) (iblk1 V c 1 t) (iblk1 V c 2 t) j).trans ?_
  unfold logitsPad
  obtain ⟨e0, e1, e2, e3, e4, e5, e6, e7⟩ := idx_facts t
  have hj0 : (j 0).val < 1024 := (j 0).isLt
  have hj1 : (j 1).val < 1280 := (j 1).isLt
  -- the fused window's block is the whole fused matrix
  have r0 : ∀ k : Fin 512, iblk1 V c 0 t (leftP j k) = V c main_v34 (fusedAt (((cfg1.win 3).blk t).view.emb j) k) := fun k => by
    show V c main_v34 (((cfg1.win 0).blk t).view.emb (leftP j k)) = _
    refine congrArg (V c main_v34) (funext fun a => Fin.ext ?_)
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 512 + 1 * k.val = k.val; omega
  -- the weight window's block is rows 1280 t … of the padded weight matrix
  have r1 : ∀ k : Fin 512, iblk1 V c 1 t (rightP j k) = V c main_v35 (weightAt (((cfg1.win 3).blk t).view.emb j) k) := fun k => by
    show V c main_v35 (((cfg1.win 1).blk t).view.emb (rightP j k)) = _
    refine congrArg (V c main_v35) (funext fun a => Fin.ext ?_)
    match a with
    | ⟨0, _⟩ => show win1_1.index t (0 : Fin 2) * 1280 + 1 * (j 1).val = win1_3.index t (1 : Fin 2) * 1280 + 1 * (j 1).val; omega
    | ⟨1, _⟩ => show win1_1.index t (1 : Fin 2) * 512 + 1 * k.val = k.val; omega
  -- the bias window's block is columns 1280 t … of the padded bias row
  have r2 : iblk1 V c 2 t (tileBias j) = V c main_v37 (biasAt (((cfg1.win 3).blk t).view.emb j)) := by
    show V c main_v37 (((cfg1.win 2).blk t).view.emb (tileBias j)) = _
    refine congrArg (V c main_v37) (funext fun a => Fin.ext ?_)
    match a with
    | ⟨0, _⟩ => show win1_2.index t (0 : Fin 2) * 1 + 1 * 0 = 0; omega
    | ⟨1, _⟩ => show win1_2.index t (1 : Fin 2) * 1280 + 1 * (j 1).val = win1_3.index t (1 : Fin 2) * 1280 + 1 * (j 1).val; omega
  rw [r2]
  exact congrArg (· + _) (Finset.sum_congr rfl fun k _ => by rw [r0 k, r1 k])

/-- An index of the padded logits is in point `t`'s block iff each coordinate is in the block's range on its axis. -/
theorem mem_blk (t : Fin cfg1.N) (i : S1024x101120.Idx) :
    i ∈ ((cfg1.win 3).blk t).view.set ↔ ∀ a : Fin 2, win1_3.index t a * S1024x1280.size a ≤ (i a).val ∧ (i a).val < win1_3.index t a * S1024x1280.size a + S1024x1280.size a := by
  show i ∈ ((View.whole main_v38).slice (win1_3.rect t)).set ↔ _
  rw [View.set_slice_whole, Rect.mem_set_unit]
  exact Iff.rfl

/-- Column n of the padded logits lies in the block of point n / 1280: the 79 tiles cover the array. -/
theorem cover (i : S1024x101120.Idx) : ∃ t : Fin cfg1.N, (cfg1.win 3).flush t = true ∧ i ∈ ((cfg1.win 3).blk t).view.set := by
  have hi0 : (i 0).val < 1024 := (i 0).isLt
  have hi1 : (i 1).val < 101120 := (i 1).isLt
  have hN : cfg1.N = 79 := N_1
  obtain ⟨t, ht⟩ : ∃ t : Fin cfg1.N, t.val = (i 1).val / 1280 := ⟨⟨(i 1).val / 1280, by rw [hN]; omega⟩, rfl⟩
  obtain ⟨e0, e1, e2, e3, e4, e5, e6, e7⟩ := idx_facts t
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1280 ≤ (i 1).val ∧ (i 1).val < win1_3.index t (1 : Fin 2) * 1280 + 1280; omega

/-- THE PADDED LOGITS after the region: one function of the arrays the region read. -/
theorem logits_eq (c : Dev nD) :
    (dat1 V c).arrAt 3 cfg1.N = logitsPad (V c main_v34) (V c main_v35) (V c main_v37) :=
  (dat1 V c).arrAt_eq_of_cover 3 _ (fun t _ => flushed_eq V c t) (cover)

end Cert.KernelIdeal.Proj

end
-- ==== Proof.Bridge.lean ====
/-
  The kernel's value and the reference's are one function of the nine arguments, at the ideal values.

  Both programs pool the sequence embeddings and the retrieved embeddings with the same host operations; those two
  matrices P and R are carried as they are. From them:
    user_rep (r, j) = Σ_k P (r, k) · W_rec (j, k) + b_rec (j)
    logit (r, j)    = Σ_k [user_rep | R] (r, k) · gate_W (j, k) + gate_b (j)
    gate            = 1 / (1 + exp (− logit))
    fused           = gate · user_rep + (1 − gate) · R
    logits (r, n)   = Σ_k fused (r, k) · proj_W (n, k) + proj_b (n)
  The kernel contracts the second axis of both operands of each product, the reference multiplies by the transposed
  matrix: the same sums. The kernel's logistic is by definition the quotient the reference spells out, once the word of
  1.0 is read as the number one. The kernel pads proj_W and proj_b with zeros beyond row 100000 and cuts those columns
  off again: inside the first 100000 columns the padded arrays are the arguments.
-/
import proofs.«139224_j6365141533105_1_alg».proof.Proof.RefRead
import proofs.«139224_j6365141533105_1_alg».proof.Proof.KernelDots
import proofs.«139224_j6365141533105_1_alg».proof.Proof.RegionProj
import Idealize.ShloMosaic.Lib.KernelVsHost
import Idealize.ShloMosaic.Lib.IdealHost

set_option maxRecDepth 16384

noncomputable section

namespace Cert.Bridge

open Cert.KernelIdeal Cert.KernelIdeal.Gen Cert.KernelIdeal.Dots Cert.KernelIdeal.Proj
open Cert.ReferenceIdeal.ReadP
open Idealize.ShloMosaic

/-! ## A bias laid out as a row and broadcast down the rows -/

/-- Column `i 1` of a length-512 vector. -/
abbrev colOf (i : S1024x512.Idx) : S512.Idx := fun a => match a with
  | ⟨0, _⟩ => ⟨(i 1).val, (i 1).isLt⟩
/-- Row 0, column `i 1` of a [1, 512] row. -/
abbrev rowOf (i : S1024x512.Idx) : S1x512.Idx := fun a => match a with
  | ⟨0, _⟩ => ⟨0, Nat.one_pos⟩
  | ⟨1, _⟩ => ⟨(i 1).val, (i 1).isLt⟩

theorem biasRow_apply (x : (⟨S512, .f32⟩ : BufTy).Contents (Elt Ideal)) (i : S1024x512.Idx) :
    broadcastTo S1024x512 (shapeCast S1x512 x shapeCasts_S512_S1x512) broadcasts_S1x512_S1024x512 i = x (colOf i) := by
  refine (broadcastTo_apply _ broadcasts_S1x512_S1024x512 i (rowOf i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])).trans ?_
  exact shapeCast_apply x shapeCasts_S512_S1x512 (rowOf i) (colOf i) (by
    rw [Shape.rowMajor_val_two, Shape.rowMajor_val_one]; show (i 1).val = 0 * 512 + (i 1).val; omega)

variable (x0 : (⟨S1024x200, .i32⟩ : BufTy).Contents (Elt Ideal)) (x1 : (⟨S1024x50, .i32⟩ : BufTy).Contents (Elt Ideal))
  (x2 : (⟨S100000x512, .f32⟩ : BufTy).Contents (Elt Ideal)) (x3 : (⟨S512x512, .f32⟩ : BufTy).Contents (Elt Ideal))
  (x4 : (⟨S512, .f32⟩ : BufTy).Contents (Elt Ideal)) (x5 : (⟨S512x1024, .f32⟩ : BufTy).Contents (Elt Ideal))
  (x6 : (⟨S512, .f32⟩ : BufTy).Contents (Elt Ideal)) (x7 : (⟨S100000x512, .f32⟩ : BufTy).Contents (Elt Ideal))
  (x8 : (⟨S100000, .f32⟩ : BufTy).Contents (Elt Ideal))

/-! ## user_rep -/

theorem leftU_eq (i : S1024x512.Idx) (k : Fin 512) : leftU i k = lidx_main_v23 i k :=
  funext fun a => by match a with | ⟨0, _⟩ => rfl | ⟨1, _⟩ => rfl
theorem rightU_eq (i : S1024x512.Idx) (k : Fin 512) : rightU i k = idx_main_v22 (ridx_main_v23 i k) :=
  funext fun a => by match a with | ⟨0, _⟩ => rfl | ⟨1, _⟩ => rfl
theorem colOf_eq_v25 (i : S1024x512.Idx) : colOf i = idx_main_v24 (idx_main_v25 i) :=
  funext fun a => by match a with | ⟨0, _⟩ => rfl

/-- The kernel's user representation is the reference's. -/
theorem userRep_eq :
    addf (matmul dot_S1024x512_S512x512_S1024x512_1_1_0_0_n_n none (truncf .bf16 (val_main_v21 (F := Ideal) x0 x2) bitsLt_bf16_f32)
        (truncf .bf16 x3 bitsLt_bf16_f32) (constant (F := Ideal) S1024x512 .f32 0x00000000#32))
      (broadcastTo S1024x512 (shapeCast S1x512 x4 shapeCasts_S512_S1x512) broadcasts_S1x512_S1024x512)
    = val_main_v26 (F := Ideal) x0 x2 x3 x4 := by
  funext i
  rw [val_main_v26_apply, val_main_v23_apply, val_main_v25_apply, val_main_v24_apply]
  simp only [val_main_v22_apply]
  show matmul dot_S1024x512_S512x512_S1024x512_1_1_0_0_n_n none (truncf .bf16 (val_main_v21 (F := Ideal) x0 x2) bitsLt_bf16_f32)
        (truncf .bf16 x3 bitsLt_bf16_f32) (constant (F := Ideal) S1024x512 .f32 0x00000000#32) i
      + broadcastTo S1024x512 (shapeCast S1x512 x4 shapeCasts_S512_S1x512) broadcasts_S1x512_S1024x512 i = _
  rw [matmulU_apply, biasRow_apply]
  simp only [leftU_eq, rightU_eq, colOf_eq_v25]
  rfl

/-! ## The gate logit -/

theorem leftG_eq (i : S1024x512.Idx) (k : Fin 1024) : leftG i k = lidx_main_v39 i k :=
  funext fun a => by match a with | ⟨0, _⟩ => rfl | ⟨1, _⟩ => rfl
theorem rightG_eq (i : S1024x512.Idx) (k : Fin 1024) : rightG i k = idx_main_v38 (ridx_main_v39 i k) :=
  funext fun a => by match a with | ⟨0, _⟩ => rfl | ⟨1, _⟩ => rfl
theorem colOf_eq_v41 (i : S1024x512.Idx) : colOf i = idx_main_v40 (idx_main_v41 i) :=
  funext fun a => by match a with | ⟨0, _⟩ => rfl

/-- The kernel's gate logit, over the reference's user representation and retrieved mean joined side by side, is the
    reference's. -/
theorem gateLogit_eq :
    addf (matmul dot_S1024x1024_S512x1024_S1024x512_1_1_0_0_n_n none
        (truncf .bf16 (concatenate S1024x1024 1 [⟨S1024x512, val_main_v26 (F := Ideal) x0 x2 x3 x4⟩, ⟨S1024x512, val_main_v36 (F := Ideal) x1 x2⟩]
          concatenates_S1024x512_S1024x512_S1024x1024_d1) bitsLt_bf16_f32)
        (truncf .bf16 x5 bitsLt_bf16_f32) (constant (F := Ideal) S1024x512 .f32 0x00000000#32))
      (broadcastTo S1024x512 (shapeCast S1x512 x6 shapeCasts_S512_S1x512) broadcasts_S1x512_S1024x512)
    = val_main_v42 (F := Ideal) x0 x1 x2 x3 x4 x5 x6 := by
  funext i
  rw [val_main_v42_apply, val_main_v39_apply, val_main_v41_apply, val_main_v40_apply]
  simp only [val_main_v38_apply]
  show matmul dot_S1024x1024_S512x1024_S1024x512_1_1_0_0_n_n none
        (truncf .bf16 (concatenate S1024x1024 1 [⟨S1024x512, val_main_v26 (F := Ideal) x0 x2 x3 x4⟩, ⟨S1024x512, val_main_v36 (F := Ideal) x1 x2⟩]
          concatenates_S1024x512_S1024x512_S1024x1024_d1) bitsLt_bf16_f32)
        (truncf .bf16 x5 bitsLt_bf16_f32) (constant (F := Ideal) S1024x512 .f32 0x00000000#32) i
      + broadcastTo S1024x512 (shapeCast S1x512 x6 shapeCasts_S512_S1x512) broadcasts_S1x512_S1024x512 i = _
  rw [matmulG_apply, biasRow_apply]
  simp only [leftG_eq, rightG_eq, colOf_eq_v41]
  rfl

/-! ## The gate and the fused matrix -/

/-- The kernel's fused matrix is the reference's: the logistic is the reference's quotient, the rest is the same
    arithmetic entry by entry. -/
theorem fused_eq :
    k0_pay1 (F := Ideal) (val_main_v21 (F := Ideal) x0 x2) (val_main_v36 (F := Ideal) x1 x2) x3
      (shapeCast S1x512 x4 shapeCasts_S512_S1x512) x5 (shapeCast S1x512 x6 shapeCasts_S512_S1x512)
    = val_main_v53 (F := Ideal) x0 x1 x2 x3 x4 x5 x6 := by
  unfold k0_pay1
  dsimp only
  rw [shapeCast_self, shapeCast_self, shapeCast_self, shapeCast_self]
  rw [userRep_eq, gateLogit_eq]
  funext i
  rw [val_main_v53_apply, val_main_v49_apply, val_main_v52_apply, val_main_v51_apply, val_main_v48_apply, val_main_v46_apply,
    val_main_v44_apply, val_main_v43_apply, val_main_v45_apply, val_main_v47_apply, val_main_v50_apply,
    val_main_cst_11_apply, val_main_cst_12_apply, val_main_cst_13_apply]
  show Ideal.logistic (val_main_v42 (F := Ideal) x0 x1 x2 x3 x4 x5 x6 i) * val_main_v26 (F := Ideal) x0 x2 x3 x4 i
      + (Ideal.ofBits .f32 0x3F800000#32 - Ideal.logistic (val_main_v42 (F := Ideal) x0 x1 x2 x3 x4 x5 x6 i)) * val_main_v36 (F := Ideal) x1 x2 i
    = Ideal.div (Ideal.ofBits .f32 0x3F800000#32) (Ideal.ofBits .f32 0x3F800000#32 + Ideal.exp (-(val_main_v42 (F := Ideal) x0 x1 x2 x3 x4 x5 x6 i))) * val_main_v26 (F := Ideal) x0 x2 x3 x4 i
      + (Ideal.ofBits .f32 0x3F800000#32 - Ideal.div (Ideal.ofBits .f32 0x3F800000#32) (Ideal.ofBits .f32 0x3F800000#32 + Ideal.exp (-(val_main_v42 (F := Ideal) x0 x1 x2 x3 x4 x5 x6 i)))) * val_main_v36 (F := Ideal) x1 x2 i
  rw [Ideal.ofBits_one_f32]
  rfl

/-! ## The projection, its padding and the final slice -/

/-- An index of the result as the same entry of the padded logits. -/
abbrev widen (i : S1024x100000.Idx) : S1024x101120.Idx := fun a => match a with
  | ⟨0, _⟩ => ⟨(i 0).val, (i 0).isLt⟩
  | ⟨1, _⟩ => ⟨(i 1).val, by have h : (i 1).val < 100000 := (i 1).isLt; show (i 1).val < 101120; omega⟩
/-- Row `i 1` of proj_W at column `k`. -/
abbrev rowW (i : S1024x100000.Idx) (k : Fin 512) : S100000x512.Idx := fun a => match a with
  | ⟨0, _⟩ => ⟨(i 1).val, (i 1).isLt⟩
  | ⟨1, _⟩ => ⟨k.val, k.isLt⟩
/-- Entry `i 1` of proj_b. -/
abbrev entB (i : S1024x100000.Idx) : S100000.Idx := fun a => match a with
  | ⟨0, _⟩ => ⟨(i 1).val, (i 1).isLt⟩
/-- Entry `i 1` of the padded bias. -/
abbrev entPad (i : S1024x100000.Idx) : S101120.Idx := fun a => match a with
  | ⟨0, _⟩ => ⟨(i 1).val, by have h : (i 1).val < 100000 := (i 1).isLt; show (i 1).val < 101120; omega⟩

theorem logitsPad_apply (fu : Vec Ideal S1024x512 .f32) (w : Vec Ideal S101120x512 .f32) (b : Vec Ideal S1x101120 .f32) (i : S1024x101120.Idx) :
    logitsPad fu w b i = (∑ k : Fin 512, fu (fusedAt i k) * w (weightAt i k)) + b (biasAt i) := rfl

/-- Below row 100000 the padded weight matrix is proj_W. -/
theorem padW_apply (z : (⟨S_, .f32⟩ : BufTy).Contents (Elt Ideal)) (i : S1024x100000.Idx) (k : Fin 512) :
    pad S101120x512 ![0, 0] ![1120, 0] ![0, 0] x7 z pads_S100000x512_S101120x512_011200_000 h_S_ (weightAt (widen i) k) = x7 (rowW i k) :=
  pad_apply_of_inside _ _ _ x7 z pads_S100000x512_S101120x512_011200_000 h_S_ _ (rowW i k) (fun a => match a with
    | ⟨0, _⟩ => by show (i 1).val = 0 + (i 1).val * (0 + 1); omega
    | ⟨1, _⟩ => by show k.val = 0 + k.val * (0 + 1); omega)

/-- Below entry 100000 the padded bias row is proj_b. -/
theorem padB_apply (z : (⟨S_, .f32⟩ : BufTy).Contents (Elt Ideal)) (i : S1024x100000.Idx) :
    shapeCast S1x101120 (pad S101120 ![0] ![1120] ![0] x8 z pads_S100000_S101120_011200 h_S_) shapeCasts_S101120_S1x101120 (biasAt (widen i))
      = x8 (entB i) := by
  refine (shapeCast_apply _ shapeCasts_S101120_S1x101120 (biasAt (widen i)) (entPad i) (by
    rw [Shape.rowMajor_val_two, Shape.rowMajor_val_one]; show (i 1).val = 0 * 101120 + (i 1).val; omega)).trans ?_
  exact pad_apply_of_inside _ _ _ x8 z pads_S100000_S101120_011200 h_S_ _ (entB i) (fun a => match a with
    | ⟨0, _⟩ => by show (i 1).val = 0 + (i 1).val * (0 + 1); omega)

theorem fusedAt_eq (i : S1024x100000.Idx) (k : Fin 512) : fusedAt (widen i) k = lidx_main_v55 i k :=
  funext fun a => by match a with | ⟨0, _⟩ => rfl | ⟨1, _⟩ => rfl
theorem rowW_eq (i : S1024x100000.Idx) (k : Fin 512) : rowW i k = idx_main_v54 (ridx_main_v55 i k) :=
  funext fun a => by match a with | ⟨0, _⟩ => rfl | ⟨1, _⟩ => rfl
theorem entB_eq (i : S1024x100000.Idx) : entB i = idx_main_v56 (idx_main_v57 i) :=
  funext fun a => by match a with | ⟨0, _⟩ => rfl

/-- What the kernel's program returns, as a function of the nine arguments: the first 100000 columns of the padded
    logits of the kernel's fused matrix, the padded weights and the padded bias row. -/
def kernelOut : Vec Ideal S1024x100000 .f32 :=
  extractStridedSlice S1024x100000 ![0, 0]
    (logitsPad
      (k0_pay1 (F := Ideal) (val_main_v21 (F := Ideal) x0 x2) (val_main_v36 (F := Ideal) x1 x2) x3
        (shapeCast S1x512 x4 shapeCasts_S512_S1x512) x5 (shapeCast S1x512 x6 shapeCasts_S512_S1x512))
      (pad S101120x512 ![0, 0] ![1120, 0] ![0, 0] x7 (sitofp (F := Ideal) .f32 (constantI S_ 32 0#32)) pads_S100000x512_S101120x512_011200_000 h_S_)
      (shapeCast S1x101120 (pad S101120 ![0] ![1120] ![0] x8 (sitofp (F := Ideal) .f32 (constantI S_ 32 0#32)) pads_S100000_S101120_011200 h_S_)
        shapeCasts_S101120_S1x101120))
    slices_S1024x101120_S1024x100000_0_0

/-- THE BRIDGE: the kernel's result is the reference's last stage. -/
theorem kernelOut_eq :
    kernelOut x0 x1 x2 x3 x4 x5 x6 x7 x8 = val_main_v58 (F := Ideal) x0 x1 x2 x3 x4 x5 x6 x7 x8 := by
  funext i
  unfold kernelOut
  rw [fused_eq]
  refine (extractStridedSlice_apply _ _ slices_S1024x101120_S1024x100000_0_0 i (widen i) (fun a => match a with
    | ⟨0, _⟩ => by show (i 0).val = 0 + (i 0).val; omega
    | ⟨1, _⟩ => by show (i 1).val = 0 + (i 1).val; omega)).trans ?_
  rw [logitsPad_apply, padB_apply, val_main_v58_apply, val_main_v55_apply, val_main_v57_apply, val_main_v56_apply, entB_eq]
  refine congrArg (· + _) (Finset.sum_congr rfl fun k _ => ?_)
  rw [padW_apply, val_main_v54_apply, fusedAt_eq, rowW_eq]

end Cert.Bridge

end
-- ==== Proof.HostReads.lean ====
/-
  The host operations around the two regions, read at the buffers the regions and the result depend on. The result is
  the first 100000 columns of the padded logits; the projection region reads the fused matrix as the gate-fusion region
  left it, the weight matrix padded below with 1120 zero rows, and the bias padded with 1120 zeros and laid out as one
  row; the gate-fusion region reads W_rec and gate_W as launched and the two biases laid out as rows.
-/
import proofs.«139224_j6365141533105_1_alg».proof.Proof.Gen.KernelIdeal.Frame

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The result is the slice of the padded logits' first 100000 columns. -/
theorem result_read (c : Dev nD) :
    W13 m ρ c (Proc.devRef .tc main_v39)
      = extractStridedSlice S1024x100000 ![0, 0] (W12 m ρ c (Proc.devRef .tc main_v38)) slices_S1024x101120_S1024x100000_0_0 := by
  show StableHlo.after hostOps2 (W12 m ρ c) (Proc.devRef .tc main_v39) = _
  after_results

/-- The padded logits are what the projection region's write-backs leave. -/
theorem logits_read (c : Dev nD) :
    W12 m ρ c (Proc.devRef .tc main_v38) = (dat1 (V11 m ρ) c).arrAt 3 cfg1.N := W12_arr m ρ c 3

/-- The projection region finds the fused matrix as the gate-fusion region's write-back left it. -/
theorem fused_read (c : Dev nD) : V11 m ρ c main_v34 = (dat0 (V5 m ρ) c).arrAt 6 cfg0.N := by
  show StableHlo.after hostOps1_4 (StableHlo.after hostOps1_3 (StableHlo.after hostOps1_2 (StableHlo.after hostOps1_1
    (StableHlo.after hostOps1 (W6 m ρ c))))) (Proc.devRef .tc main_v34) = _
  after_results
  exact W6_arr m ρ c 6

/-- The contents at the gate-fusion region's entry, at a buffer no operation before it writes, are the launch contents. -/
theorem entry0_arg3 (c : Dev nD) : V5 m ρ c main_arg3 = m ((c : Thread nD τ).loc main_arg3) := by
  show StableHlo.after hostOps0_4 (StableHlo.after hostOps0_3 (StableHlo.after hostOps0_2 (StableHlo.after hostOps0_1
    (StableHlo.after hostOps0 (W0 m ρ c))))) (Proc.devRef .tc main_arg3) = _
  after_results
theorem entry0_arg5 (c : Dev nD) : V5 m ρ c main_arg5 = m ((c : Thread nD τ).loc main_arg5) := by
  show StableHlo.after hostOps0_4 (StableHlo.after hostOps0_3 (StableHlo.after hostOps0_2 (StableHlo.after hostOps0_1
    (StableHlo.after hostOps0 (W0 m ρ c))))) (Proc.devRef .tc main_arg5) = _
  after_results
/-- The two biases enter the gate-fusion region laid out as rows. -/
theorem entry0_v32 (c : Dev nD) :
    V5 m ρ c main_v32 = shapeCast S1x512 (m ((c : Thread nD τ).loc main_arg4)) shapeCasts_S512_S1x512 := by
  show StableHlo.after hostOps0_4 (StableHlo.after hostOps0_3 (StableHlo.after hostOps0_2 (StableHlo.after hostOps0_1
    (StableHlo.after hostOps0 (W0 m ρ c))))) (Proc.devRef .tc main_v32) = _
  after_results
  rfl
theorem entry0_v33 (c : Dev nD) :
    V5 m ρ c main_v33 = shapeCast S1x512 (m ((c : Thread nD τ).loc main_arg6)) shapeCasts_S512_S1x512 := by
  show StableHlo.after hostOps0_4 (StableHlo.after hostOps0_3 (StableHlo.after hostOps0_2 (StableHlo.after hostOps0_1
    (StableHlo.after hostOps0 (W0 m ρ c))))) (Proc.devRef .tc main_v33) = _
  after_results
  rfl

/-- The weight matrix enters the projection region padded below with 1120 rows of the converted integer zero. -/
theorem weight_read (c : Dev nD) :
    V11 m ρ c main_v35 = pad S101120x512 ![0, 0] ![1120, 0] ![0, 0] (m ((c : Thread nD τ).loc main_arg7))
      (sitofp (F := F) .f32 (constantI S_ 32 0#32)) pads_S100000x512_S101120x512_011200_000 h_S_ := by
  show StableHlo.after hostOps1_4 (StableHlo.after hostOps1_3 (StableHlo.after hostOps1_2 (StableHlo.after hostOps1_1
    (StableHlo.after hostOps1 (W6 m ρ c))))) (Proc.devRef .tc main_v35) = _
  after_results
  rw [W6_of_ne m ρ c main_arg7 (by decide)]
  show _ = pad S101120x512 ![0, 0] ![1120, 0] ![0, 0] (StableHlo.after hostOps0_4 (StableHlo.after hostOps0_3 (StableHlo.after hostOps0_2 (StableHlo.after hostOps0_1
    (StableHlo.after hostOps0 (W0 m ρ c))))) (Proc.devRef .tc main_arg7)) _ _ _
  after_results
  rfl

/-- The bias enters the projection region padded with 1120 entries of the converted integer zero and laid out as a row. -/
theorem bias_read (c : Dev nD) :
    V11 m ρ c main_v37 = shapeCast S1x101120 (pad S101120 ![0] ![1120] ![0] (m ((c : Thread nD τ).loc main_arg8))
      (sitofp (F := F) .f32 (constantI S_ 32 0#32)) pads_S100000_S101120_011200 h_S_) shapeCasts_S101120_S1x101120 := by
  show StableHlo.after hostOps1_4 (StableHlo.after hostOps1_3 (StableHlo.after hostOps1_2 (StableHlo.after hostOps1_1
    (StableHlo.after hostOps1 (W6 m ρ c))))) (Proc.devRef .tc main_v37) = _
  after_results
  rw [W6_of_ne m ρ c main_arg8 (by decide)]
  show _ = shapeCast S1x101120 (pad S101120 ![0] ![1120] ![0] (StableHlo.after hostOps0_4 (StableHlo.after hostOps0_3 (StableHlo.after hostOps0_2 (StableHlo.after hostOps0_1
    (StableHlo.after hostOps0 (W0 m ρ c))))) (Proc.devRef .tc main_arg8)) _ _ _) _
  after_results
  rfl

end Cert.KernelIdeal.HostReads

end
-- ==== Proof.HostPool.lean ====
/-
  The two pooled matrices the gate-fusion region reads. The kernel's program computes them on the host with the very
  operations of the reference — the masked gather of the sequence embeddings summed over the sequence and divided by the
  clamped count, and the gather of the retrieved embeddings summed and divided by 50 —, so at the region's entry the two
  buffers hold the reference's own stages of the launch arguments.
-/
import proofs.«139224_j6365141533105_1_alg».proof.Proof.Gen.KernelIdeal.Frame
import proofs.«139224_j6365141533105_1_alg».proof.Proof.RefRead

set_option maxRecDepth 16384

noncomputable section

namespace Cert.KernelIdeal.HostPool

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- The masked mean of the sequence embeddings. -/
theorem pooled_read (c : Dev nD) :
    V5 m ρ c main_v21 = Cert.ReferenceIdeal.ReadP.val_main_v21 (F := F) (m ((c : Thread nD τ).loc main_arg0)) (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v21) = _
  after_results_simp
  rfl

set_option maxHeartbeats 4000000 in
/-- The mean of the retrieved embeddings. -/
theorem retrieved_read (c : Dev nD) :
    V5 m ρ c main_v31 = Cert.ReferenceIdeal.ReadP.val_main_v36 (F := F) (m ((c : Thread nD τ).loc main_arg1)) (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v31) = _
  after_results_simp
  rfl

end Cert.KernelIdeal.HostPool

end
-- ==== Proof.RegionFuse.lean ====
/-
  The gate-fusion region. Its grid has one point and every window's block is its whole array, so after the region the
  fused matrix is the body's value of the six arrays the region read, whole.
-/
import proofs.«139224_j6365141533105_1_alg».proof.Proof.Gen.KernelIdeal.Frame
import Idealize.ShloMosaic.Lib.Pipeline.Value

set_option maxRecDepth 16384

noncomputable section

namespace Cert.KernelIdeal.Fuse

open Cert.KernelIdeal Cert.KernelIdeal.Gen
open Idealize.ShloMosaic Idealize.ShloMosaic.TcCoe Idealize.SL.Sem
open Idealize.ShloMosaic.Pipeline (Dat Cfg Window)

variable {F : FTy → Type} [FloatOps F]

theorem hz : (![0, 0] : Fin 2 → Nat) = fun _ => 0 := funext fun a => by fin_cases a <;> rfl

variable (V : (c : Dev nD) → (b : Ref sig .tc) → Buf (Elt F) ((c : Thread nD τ).loc b))

/-- The printed index maps at the grid's one point: every window sits at block (0, 0). -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Window 0's block is its whole array. -/
theorem blk0 (c : Dev nD) (t : Fin cfg0.N) : (iblk0 V c 0 t : Vec F S1024x512 .f32) = V c main_v21 := by
  funext y
  show V c main_v21 (((cfg0.win 0).blk t).view.emb y) = V c main_v21 y
  refine congrArg (V c main_v21) (funext fun a => Fin.ext ?_)
  obtain ⟨a0, a1, b0, b1, c0, c1, d0, d1, e0, e1, f0, f1, g0, g1⟩ := idx_facts t
  match a with
  | ⟨0, _⟩ => show win0_0.index t (0 : Fin 2) * 1024 + 1 * (y 0).val = (y 0).val; omega
  | ⟨1, _⟩ => show win0_0.index t (1 : Fin 2) * 512 + 1 * (y 1).val = (y 1).val; omega

/-- Window 1's block is its whole array. -/
theorem blk1 (c : Dev nD) (t : Fin cfg0.N) : (iblk0 V c 1 t : Vec F S1024x512 .f32) = V c main_v31 := by
  funext y
  show V c main_v31 (((cfg0.win 1).blk t).view.emb y) = V c main_v31 y
  refine congrArg (V c main_v31) (funext fun a => Fin.ext ?_)
  obtain ⟨a0, a1, b0, b1, c0, c1, d0, d1, e0, e1, f0, f1, g0, g1⟩ := idx_facts t
  match a with
  | ⟨0, _⟩ => show win0_1.index t (0 : Fin 2) * 1024 + 1 * (y 0).val = (y 0).val; omega
  | ⟨1, _⟩ => show win0_1.index t (1 : Fin 2) * 512 + 1 * (y 1).val = (y 1).val; omega

/-- Window 2's block is its whole array. -/
theorem blk2 (c : Dev nD) (t : Fin cfg0.N) : (iblk0 V c 2 t : Vec F S512x512 .f32) = V c main_arg3 := by
  funext y
  show V c main_arg3 (((cfg0.win 2).blk t).view.emb y) = V c main_arg3 y
  refine congrArg (V c main_arg3) (funext fun a => Fin.ext ?_)
  obtain ⟨a0, a1, b0, b1, c0, c1, d0, d1, e0, e1, f0, f1, g0, g1⟩ := idx_facts t
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- Window 3's block is its whole array. -/
theorem blk3 (c : Dev nD) (t : Fin cfg0.N) : (iblk0 V c 3 t : Vec F S1x512 .f32) = V c main_v32 := by
  funext y
  show V c main_v32 (((cfg0.win 3).blk t).view.emb y) = V c main_v32 y
  refine congrArg (V c main_v32) (funext fun a => Fin.ext ?_)
  obtain ⟨a0, a1, b0, b1, c0, c1, d0, d1, e0, e1, f0, f1, g0, g1⟩ := idx_facts t
  match a with
  | ⟨0, _⟩ => show win0_3.index t (0 : Fin 2) * 1 + 1 * (y 0).val = (y 0).val; omega
  | ⟨1, _⟩ => show win0_3.index t (1 : Fin 2) * 512 + 1 * (y 1).val = (y 1).val; omega

/-- Window 4's block is its whole array. -/
theorem blk4 (c : Dev nD) (t : Fin cfg0.N) : (iblk0 V c 4 t : Vec F S512x1024 .f32) = V c main_arg5 := by
  funext y
  show V c main_arg5 (((cfg0.win 4).blk t).view.emb y) = V c main_arg5 y
  refine congrArg (V c main_arg5) (funext fun a => Fin.ext ?_)
  obtain ⟨a0, a1, b0, b1, c0, c1, d0, d1, e0, e1, f0, f1, g0, g1⟩ := idx_facts t
  match a with
  | ⟨0, _⟩ => show win0_4.index t (0 : Fin 2) * 512 + 1 * (y 0).val = (y 0).val; omega
  | ⟨1, _⟩ => show win0_4.index t (1 : Fin 2) * 1024 + 1 * (y 1).val = (y 1).val; omega

/-- Window 5's block is its whole array. -/
theorem blk5 (c : Dev nD) (t : Fin cfg0.N) : (iblk0 V c 5 t : Vec F S1x512 .f32) = V c main_v33 := by
  funext y
  show V c main_v33 (((cfg0.win 5).blk t).view.emb y) = V c main_v33 y
  refine congrArg (V c main_v33) (funext fun a => Fin.ext ?_)
  obtain ⟨a0, a1, b0, b1, c0, c1, d0, d1, e0, e1, f0, f1, g0, g1⟩ := idx_facts t
  match a with
  | ⟨0, _⟩ => show win0_5.index t (0 : Fin 2) * 1 + 1 * (y 0).val = (y 0).val; omega
  | ⟨1, _⟩ => show win0_5.index t (1 : Fin 2) * 512 + 1 * (y 1).val = (y 1).val; omega

/-- WHAT THE ONE POINT WRITES BACK is the body's value of the whole arrays. -/
theorem flushed_eq (c : Dev nD) (t : Fin cfg0.N) :
    (dat0 V c).flushed 6 t = ((cfg0.win 6).blk t).view.read (Elt F)
      (k0_pay1 (V c main_v21) (V c main_v31) (V c main_arg3) (V c main_v32) (V c main_arg5) (V c main_v33)) := by
  show (cfg0.win 6).cut (grid0.coords t) ((dat0 V c).after 6 t) = _
  rw [after0_6]
  unfold out0_6
  rw [View.canon_unit_zero hz]
  simp only [View.ld_unit_zero (S := S1024x512) hz, View.ld_unit_zero (S := S512x512) hz, View.ld_unit_zero (S := S1x512) hz,
    View.ld_unit_zero (S := S512x1024) hz]
  rw [blk0 V c t, blk1 V c t, blk2 V c t, blk3 V c t, blk4 V c t, blk5 V c t]
  funext j
  show k0_pay1 (V c main_v21) (V c main_v31) (V c main_arg3) (V c main_v32) (V c main_arg5) (V c main_v33) j
    = k0_pay1 (V c main_v21) (V c main_v31) (V c main_arg3) (V c main_v32) (V c main_arg5) (V c main_v33) (((cfg0.win 6).blk t).view.emb j)
  refine congrArg _ (funext fun a => Fin.ext ?_)
  obtain ⟨a0, a1, b0, b1, c0, c1, d0, d1, e0, e1, f0, f1, g0, g1⟩ := idx_facts t
  match a with
  | ⟨0, _⟩ => show (j 0).val = win0_6.index t (0 : Fin 2) * 1024 + 1 * (j 0).val; omega
  | ⟨1, _⟩ => show (j 1).val = win0_6.index t (1 : Fin 2) * 512 + 1 * (j 1).val; omega

theorem mem_blk (t : Fin cfg0.N) (i : S1024x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v34).slice (win0_6.rect t)).set ↔ _
  rw [View.set_slice_whole, Rect.mem_set_unit]
  exact Iff.rfl

/-- The one block is the whole array. -/
theorem cover (i : S1024x512.Idx) : ∃ t : Fin cfg0.N, (cfg0.win 6).flush t = true ∧ i ∈ ((cfg0.win 6).blk t).view.set := by
  have hi0 : (i 0).val < 1024 := (i 0).isLt
  have hi1 : (i 1).val < 512 := (i 1).isLt
  obtain ⟨a0, a1, b0, b1, c0, c1, d0, d1, e0, e1, f0, f1, g0, g1⟩ := idx_facts t0_0
  refine ⟨t0_0, flush0_6 t0_0, ?_⟩
  rw [mem_blk]
  intro a
  match a with
  | ⟨0, _⟩ => show win0_6.index t0_0 (0 : Fin 2) * 1024 ≤ (i 0).val ∧ (i 0).val < win0_6.index t0_0 (0 : Fin 2) * 1024 + 1024; omega
  | ⟨1, _⟩ => show win0_6.index t0_0 (1 : Fin 2) * 512 ≤ (i 1).val ∧ (i 1).val < win0_6.index t0_0 (1 : Fin 2) * 512 + 512; omega

/-- THE FUSED MATRIX after the region: the body's value of the six arrays the region read. -/
theorem fused_eq (c : Dev nD) :
    (dat0 V c).arrAt 6 cfg0.N
      = k0_pay1 (V c main_v21) (V c main_v31) (V c main_arg3) (V c main_v32) (V c main_arg5) (V c main_v33) :=
  (dat0 V c).arrAt_eq_of_cover 6 _ (fun t _ => flushed_eq V c t) cover

end Cert.KernelIdeal.Fuse

end
-- ==== Proof.KernelValue.lean ====
/-
  The kernel program's run with its result named: every weakly fair execution ends with the result buffer at ONE
  function of the nine launch arguments. The run is the launch over the generated segments; the function is read off
  the contents at the segment boundaries: the final slice, the projection region's 79 write-backs, the host padding,
  the gate-fusion region's one write-back, and the host pooling before it.
-/
import proofs.«139224_j6365141533105_1_alg».proof.Proof.KernelRun
import proofs.«139224_j6365141533105_1_alg».proof.Proof.HostReads
import proofs.«139224_j6365141533105_1_alg».proof.Proof.HostPool
import proofs.«139224_j6365141533105_1_alg».proof.Proof.RegionFuse
import proofs.«139224_j6365141533105_1_alg».proof.Proof.RegionProj
import proofs.«139224_j6365141533105_1_alg».proof.Proof.Bridge

set_option maxRecDepth 16384

noncomputable section

namespace Cert.KernelIdeal.ResultValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The contents of the result buffer at the last boundary. -/
theorem result_eq (c : Dev nD) :
    W13 m ρ c (Proc.devRef .tc main_v39) = Cert.Bridge.kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [HostReads.result_read, HostReads.logits_read, Proj.logits_eq (V11 m ρ) c, HostReads.fused_read, Fuse.fused_eq (V5 m ρ) c,
    HostReads.weight_read, HostReads.bias_read, HostReads.entry0_arg3, HostReads.entry0_arg5, HostReads.entry0_v32, HostReads.entry0_v33,
    HostPool.pooled_read, HostPool.retrieved_read]
  rfl

/-- The kernel program's run, the result named. -/
theorem run : θ_run defs (onTc (τ := τ) (main (F := Ideal))) ⟨m, fun _ => 0, ρ⟩ (fun r => ∀ c : Dev nD,
      r.2.mem ((c.tc : Thread nD τ).loc main_v39) = Cert.Bridge.kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (ResultRun.run_result m ρ)

end Cert.KernelIdeal.ResultValue

end
-- ==== Proof.lean ====
/-
  Claim: a recommender head in two Pallas calls against its jnp reference, over the extended reals.

  The two programs share the host pooling (a masked mean of gathered sequence embeddings, a mean of gathered retrieved
  embeddings). The kernel then computes, in one gridless call, the user representation (a product with W_rec's
  transpose plus a bias), the gate (the logistic of a product of [user_rep | retrieved] with gate_W's transpose plus a
  bias) and the fused matrix gate · user_rep + (1 − gate) · retrieved; and in a second call, tile by tile over 79 column
  blocks of 1280, the product of the fused matrix with the zero-padded proj_W's transpose plus the zero-padded proj_b,
  of which the host keeps the first 100000 columns. The reference spells the same sums with explicit transposes and the
  logistic as 1 / (1 + exp (−x)). At the ideal values the kernel's result array is the reference's last stage, entry
  by entry (Proof/Bridge.lean); no law that needs finiteness is used, so the precondition is never opened.

  The frames of the two kernel programs are the generated ones; the reference's frame is its run with the result
  dropped; the ideal pass rewrote nothing, so `preserves` is trivial.
-/
import proofs.«139224_j6365141533105_1_alg».proof.Defs
import proofs.«139224_j6365141533105_1_alg».proof.Proof.Gen.Kernel
import proofs.«139224_j6365141533105_1_alg».proof.Proof.Gen.Kernel.Skeleton
import proofs.«139224_j6365141533105_1_alg».proof.Proof.Gen.Kernel.Launch
import proofs.«139224_j6365141533105_1_alg».proof.Proof.Gen.Kernel.Points
import proofs.«139224_j6365141533105_1_alg».proof.Proof.Gen.Kernel.Frame
import proofs.«139224_j6365141533105_1_alg».proof.Proof.Gen.KernelIdeal
import proofs.«139224_j6365141533105_1_alg».proof.Proof.Gen.KernelIdeal.Skeleton
import proofs.«139224_j6365141533105_1_alg».proof.Proof.Gen.KernelIdeal.Launch
import proofs.«139224_j6365141533105_1_alg».proof.Proof.Gen.KernelIdeal.Points
import proofs.«139224_j6365141533105_1_alg».proof.Proof.Gen.KernelIdeal.Frame
import proofs.«139224_j6365141533105_1_alg».proof.Proof.Gen.ReferenceIdeal
import proofs.«139224_j6365141533105_1_alg».proof.Proof.Gen.Pre_finite_inputs
import proofs.«139224_j6365141533105_1_alg».proof.Proof.RefRun
import proofs.«139224_j6365141533105_1_alg».proof.Proof.RefRead
import proofs.«139224_j6365141533105_1_alg».proof.Proof.Bridge
import proofs.«139224_j6365141533105_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the result at the reference's last stage of the (agreeing) arguments. -/
theorem algebraic : Cert.algebraic_KernelIdeal_ReferenceIdeal := by
  intro m ρ m' ρ' _ hagree
  refine ⟨fun c => Cert.Bridge.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.KernelIdeal.ResultValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.ReadP.val_main_v58_eq, h0, h1, h2, h3, h4, h5, h6, h7, h8]
  exact (Cert.Bridge.kernelOut_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
